-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048 : Shape := ⟨1, ![2048]⟩
abbrev S2048x2048 : Shape := ⟨2, ![2048, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg7
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S32768x2048 .f32) (main_arg1 : FVec F S2048 .f32) (main_arg2 : FVec F S2048 .f32) (main_arg3 : IVec S2048 32) (main_arg4 : IVec S2048x2048 32) (main_arg5 : FVec F S2048 .f32) (main_arg6 : IVec S2048 32) (main_arg7 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg7 main_v13 main_v16
-- ==== Kernel.lean ====
abbrev S32768x2048 : Shape := ⟨2, ![32768, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩

abbrev nBuf : Space → Nat
  | .hbm => 24
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048x2048, .i32⟩
  | .hbm, ⟨5, _⟩ => ⟨S2048, .f32⟩
  | .hbm, ⟨6, _⟩ => ⟨S2048, .i32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S1x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S1x2048, .f32⟩
  | .hbm, ⟨23, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S32768x2048.size a
  hwx0_6 : ∀ i : grid0.Coords, EltTy.bits .f32 = 32 ∨ (Rect.block (s := S32768x2048) S512x2048.size (cc0_transform_6 i) (hinb0_6 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048x2048, .i32⟩
  | .hbm, ⟨5, _⟩ => ⟨S2048, .f32⟩
  | .hbm, ⟨6, _⟩ => ⟨S2048, .i32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S1x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S2048x2048, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S32768x2048, .f32⟩
  | .hbm, ⟨42, _⟩ => ⟨S1x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_cst_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S32768x2048_S2048x2048_S32768x2048_1_1_0_0_n_n_wf : DotDims.WF S32768x2048 S2048x2048 S32768x2048 [1] [1] [0] [0] [] []

variable [Facts₀]

def dot_S32768x2048_S2048x2048_S32768x2048_1_1_0_0_n_n : DotDims S32768x2048 S2048x2048 S32768x2048 where
  lhsContracting := [1]
  rhsContracting := [1]
  lhsNonContracting := [0]
  rhsNonContracting := [0]
  lhsBatch := []
  rhsBatch := []
  wf := dot_S32768x2048_S2048x2048_S32768x2048_1_1_0_0_n_n_wf

class Facts : Prop extends Facts₀ where

variable [Facts]
-- ==== Proof.FakeQuantSpec.lean ====
/-
  The common value of the two programs. With x an [N, D] activation matrix, r and s two positive-by-intent vectors
  over the D input channels, z an integer zero point per input channel, W an [O, D] integer weight matrix with a
  scale v and an integer zero point u per OUTPUT channel, and a bias b per output channel, the result at (n, o) is

      ∑_d  act(n, d) · wgt(o, d)  +  b(o),

  where  act(n, d) = (min 127 (max (−128) (round (x(n,d) / r(d) / s(d)) + z(d))) − z(d)) · s(d)   (the activation
  quantized to the signed 8-bit range around its zero point and taken back), and
  wgt(o, d) = (W(o,d) − u(o)) · v(o)   (the weight taken back from its integer code). Everything is read on the
  extended reals: the quotient is the total one, the rounding is to nearest with ties to even, an integer is its
  signed value. Nothing here needs the inputs finite: the two programs compute this very expression, in the same
  order of operations, and differ only in how the arrays are laid out and tiled.
-/
import Idealize.ShloMosaic.Lib.ValueIdx
import Idealize.ShloMosaic.PureOps.Ideal

open scoped BigOperators

noncomputable section

namespace Cert.FakeQuant

open Idealize.ShloMosaic Idealize.ShloMosaic.ValueIdx

/-- The activations' and the result's shape, a per-channel vector's, and the weight matrix's. -/
abbrev SX : Shape := ⟨2, ![32768, 2048]⟩
abbrev SV : Shape := ⟨1, ![2048]⟩
abbrev SW : Shape := ⟨2, ![2048, 2048]⟩

/-- One scalar quantized and taken back: divide by the reparametrization r and the scale s, round to the nearest
    integer (ties to even), shift by the zero point z, clamp to [−128, 127], shift back and rescale. -/
def fq (x r s z : EReal) : EReal :=
  (min (Ideal.ofBits .f32 0x42FE0000#32)
      (max (Ideal.ofBits .f32 0xC3000000#32) (Ideal.liftRound Ideal.roundHalfEven (Ideal.div (Ideal.div x r) s) + z)) - z) * s

/-- The dequantized activation at row n and input channel d. -/
def act (x : SX.Idx → EReal) (r s : SV.Idx → EReal) (z : SV.Idx → BitVec 32) (n : Fin 32768) (d : Fin 2048) : EReal :=
  fq (x (ix2 n d)) (r (ix1 d)) (s (ix1 d)) (((z (ix1 d)).toInt : ℝ) : EReal)

/-- The dequantized weight of output channel o at input channel d. -/
def wgt (W : SW.Idx → BitVec 32) (v : SV.Idx → EReal) (u : SV.Idx → BitVec 32) (o d : Fin 2048) : EReal :=
  ((((W (ix2 o d)).toInt : ℝ) : EReal) - (((u (ix1 o)).toInt : ℝ) : EReal)) * v (ix1 o)

/-- The linear layer on the dequantized activations and weights, plus the bias: the result array, index by index. -/
def out (x : SX.Idx → EReal) (r s : SV.Idx → EReal) (z : SV.Idx → BitVec 32) (W : SW.Idx → BitVec 32)
    (v : SV.Idx → EReal) (u : SV.Idx → BitVec 32) (b : SV.Idx → EReal) : SX.Idx → EReal :=
  fun i => (∑ d : Fin 2048, act x r s z (i 0) d * wgt W v u (i 1) d) + b (ix1 (i 1))

end Cert.FakeQuant

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KernelPayload.lean ====
/-
  The kernel body's one stored value, entry by entry. At row p of the activation block and output channel q the body
  stores  ∑_d fq(x(p,d), r(d), s(d), z(d)) · w(d,q) + b(q):  the per-channel vectors arrive as one-row blocks and are
  spread over the rows, the quantize-and-take-back chain is entrywise, the narrowing to the product's operand format is
  the identity on the extended reals, the product accumulates into zero, and the bias row is spread over the rows.
-/
import proofs.«152009_j64415919506225_1_alg».proof.Proof.Gen.KernelIdeal.Skeleton
import proofs.«152009_j64415919506225_1_alg».proof.Proof.FakeQuantSpec
import proofs.«152009_j64415919506225_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Payload

open Cert.KernelIdeal Cert.KernelIdeal.Gen Idealize.ShloMosaic Idealize.ShloMosaic.ValueIdx

variable [Cert.KernelIdeal.Facts]

/-- The quantized-and-taken-back activation block at (p, d), from the activation block and the three one-row blocks. -/
theorem act_apply (v0 : Vec Ideal S512x2048 .f32) (v1 v3 v5 : Vec Ideal S1x2048 .f32)
    (h : S1x2048.Broadcasts S512x2048) (p : Fin 512) (d : Fin 2048) :
    mulf (subf (minimumf (broadcast S512x2048 (FloatOps.ofBits (F := Ideal) .f32 0x42FE0000#32))
        (maximumf (broadcast S512x2048 (FloatOps.ofBits (F := Ideal) .f32 0xC3000000#32))
          (addf (roundeven (divf (divf v0 (broadcastTo S512x2048 v1 h)) (broadcastTo S512x2048 v3 h)))
            (broadcastTo S512x2048 v5 h))))
        (broadcastTo S512x2048 v5 h)) (broadcastTo S512x2048 v3 h) (ix2 p d)
      = Cert.FakeQuant.fq (v0 (ix2 p d)) (v1 (ix2 (0 : Fin 1) d)) (v3 (ix2 (0 : Fin 1) d)) (v5 (ix2 (0 : Fin 1) d)) := by
  have e1 := broadcastTo_1b_ab_apply v1 h p d
  have e3 := broadcastTo_1b_ab_apply v3 h p d
  have e5 := broadcastTo_1b_ab_apply v5 h p d
  show (min _ (max _ (Ideal.liftRound Ideal.roundHalfEven (Ideal.div (Ideal.div (v0 (ix2 p d)) (broadcastTo S512x2048 v1 h (ix2 p d)))
      (broadcastTo S512x2048 v3 h (ix2 p d))) + broadcastTo S512x2048 v5 h (ix2 p d))) - broadcastTo S512x2048 v5 h (ix2 p d))
      * broadcastTo S512x2048 v3 h (ix2 p d) = _
  rw [e1, e3, e5]
  rfl

/-- The stored value at (p, q). -/
theorem pay_apply (v0 : Vec Ideal S512x2048 .f32) (v1 v3 v5 : Vec Ideal S1x2048 .f32) (v23 : Vec Ideal S2048x2048 .bf16)
    (v26 : Vec Ideal S1x2048 .f32) (p : Fin 512) (q : Fin 2048) :
    k0_pay1 (F := Ideal) v0 v1 v3 v5 v23 v26 (ix2 p q)
      = (∑ d : Fin 2048, Cert.FakeQuant.fq (v0 (ix2 p d)) (v1 (ix2 (0 : Fin 1) d)) (v3 (ix2 (0 : Fin 1) d)) (v5 (ix2 (0 : Fin 1) d)) * v23 (ix2 d q))
        + v26 (ix2 (0 : Fin 1) q) := by
  unfold k0_pay1
  simp only [shapeCast_self]
  rw [addf_apply, broadcastTo_1b_ab_apply,
    PlainMatmul.matmul_zero_apply dot_S512x2048_S2048x2048_S512x2048_1_0_0_1_n_n
      Facts₀.dot_S512x2048_S2048x2048_S512x2048_1_0_0_1_n_n_wf rfl]
  congr 1
  refine Finset.sum_congr rfl fun d _ => ?_
  rw [truncf_apply, act_apply]

end Cert.KernelIdeal.Payload

end
-- ==== Proof.KernelArrays.lean ====
/-
  The arrays the kernel's one region finds. Before the region the program prepares, from the arguments: the two
  per-input-channel float vectors r and s and the bias b as one-row matrices; the zero point z as a one-row matrix of
  its signed values; and the dequantized weight TRANSPOSED, whose entry (d, o) is (W(o,d) − u(o)) · v(o) — the integer
  matrix read signed and transposed, the per-output-channel vectors u and v spread along the rows of the transposed
  matrix, and the narrowing to the product's operand format the identity on the extended reals.
-/
import proofs.«152009_j64415919506225_1_alg».proof.Proof.Gen.KernelIdeal.Frame
import proofs.«152009_j64415919506225_1_alg».proof.Proof.FakeQuantSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- A vector laid out as one row is read, at (0, q), at q. -/
theorem row_apply {α : Type} (x : S2048.Idx → α) (h : S2048.BroadcastsInDim S1x2048 (![1] : Fin 1 → Fin S1x2048.rank))
    (u : Fin 1) (q : Fin 2048) : broadcastInDim S1x2048 ![1] h x (ix2 u q) = x (ix1 q) :=
  broadcastInDim_apply _ h x (ix2 u q) (ix1 q) fun a => match a with
    | ⟨0, _⟩ => by show q.val = if (2048 : Nat) = 1 then 0 else q.val; rw [if_neg (by decide)]

/-- One row spread over 2048 rows is read, at (d, q), at (0, q). -/
theorem rows_apply {α : Type} (y : S1x2048.Idx → α)
    (h : S1x2048.BroadcastsInDim S2048x2048 (![0, 1] : Fin 2 → Fin S2048x2048.rank)) (d q : Fin 2048) :
    broadcastInDim S2048x2048 ![0, 1] h y (ix2 d q) = y (ix2 (0 : Fin 1) q) :=
  broadcastInDim_apply _ h y (ix2 d q) (ix2 (0 : Fin 1) q) fun a => match a with
    | ⟨0, _⟩ => by show 0 = if (1 : Nat) = 1 then 0 else d.val; rw [if_pos rfl]
    | ⟨1, _⟩ => by show q.val = if (2048 : Nat) = 1 then 0 else q.val; rw [if_neg (by decide)]

/-- The reparametrization vector as the region finds it: argument 1 as one row. -/
theorem r_row (c : Dev nD) (q : Fin 2048) :
    (V m c main_v10 : S1x2048.Idx → EReal) (ix2 (0 : Fin 1) q) = m ((c : Thread nD τ).loc main_arg1) (ix1 q) := by
  have e : (V m c main_v10 : S1x2048.Idx → EReal)
      = shapeCast S1x2048 (m ((c : Thread nD τ).loc main_arg1)) Facts₀.shapeCasts_S2048_S1x2048 := by
    dsimp only [Gen.V, Gen.hostOps0]; after_results; rfl
  rw [e]; exact shapeCast_a_1a_apply _ _ 0 q

/-- The activation scale as the region finds it: argument 2 as one row. -/
theorem s_row (c : Dev nD) (q : Fin 2048) :
    (V m c main_v11 : S1x2048.Idx → EReal) (ix2 (0 : Fin 1) q) = m ((c : Thread nD τ).loc main_arg2) (ix1 q) := by
  have e : (V m c main_v11 : S1x2048.Idx → EReal)
      = shapeCast S1x2048 (m ((c : Thread nD τ).loc main_arg2)) Facts₀.shapeCasts_S2048_S1x2048 := by
    dsimp only [Gen.V, Gen.hostOps0]; after_results; rfl
  rw [e]; exact shapeCast_a_1a_apply _ _ 0 q

/-- The activation zero point as the region finds it: argument 3's signed values as one row. -/
theorem z_row (c : Dev nD) (q : Fin 2048) :
    (V m c main_v13 : S1x2048.Idx → EReal) (ix2 (0 : Fin 1) q)
      = (((m ((c : Thread nD τ).loc main_arg3) (ix1 q)).toInt : ℝ) : EReal) := by
  have e : (V m c main_v13 : S1x2048.Idx → EReal)
      = shapeCast S1x2048 (sitofp (F := Ideal) .f32 (m ((c : Thread nD τ).loc main_arg3))) Facts₀.shapeCasts_S2048_S1x2048 := by
    dsimp only [Gen.V, Gen.hostOps0]; after_results; rfl
  rw [e]; exact shapeCast_a_1a_apply _ _ 0 q

/-- The bias as the region finds it: argument 7 as one row. -/
theorem b_row (c : Dev nD) (q : Fin 2048) :
    (V m c main_v14 : S1x2048.Idx → EReal) (ix2 (0 : Fin 1) q) = m ((c : Thread nD τ).loc main_arg7) (ix1 q) := by
  have e : (V m c main_v14 : S1x2048.Idx → EReal)
      = shapeCast S1x2048 (m ((c : Thread nD τ).loc main_arg7)) Facts₀.shapeCasts_S2048_S1x2048 := by
    dsimp only [Gen.V, Gen.hostOps0]; after_results; rfl
  rw [e]; exact shapeCast_a_1a_apply _ _ 0 q

/-- The weight as the region finds it: at (d, o) the dequantized weight of output channel o at input channel d. -/
theorem w_entry (c : Dev nD) (d o : Fin 2048) :
    (V m c main_v9 : S2048x2048.Idx → EReal) (ix2 d o)
      = Cert.FakeQuant.wgt (m ((c : Thread nD τ).loc main_arg4)) (m ((c : Thread nD τ).loc main_arg5))
          (m ((c : Thread nD τ).loc main_arg6)) o d := by
  have e : (V m c main_v9 : S2048x2048.Idx → EReal)
      = truncf .bf16 (mulf (subf
          (transpose S2048x2048 [1, 0] (sitofp (F := Ideal) .f32 (m ((c : Thread nD τ).loc main_arg4))) Facts₀.transposes_S2048x2048_S2048x2048_1_0)
          (broadcastInDim S2048x2048 ![0, 1] Facts₀.bcast_S1x2048_S2048x2048_0_1
            (broadcastInDim S1x2048 ![1] Facts₀.bcast_S2048_S1x2048_1 (sitofp (F := Ideal) .f32 (m ((c : Thread nD τ).loc main_arg6))))))
          (broadcastInDim S2048x2048 ![0, 1] Facts₀.bcast_S1x2048_S2048x2048_0_1
            (broadcastInDim S1x2048 ![1] Facts₀.bcast_S2048_S1x2048_1 (m ((c : Thread nD τ).loc main_arg5)))))
          Facts₀.bitsLt_bf16_f32 := by
    dsimp only [Gen.V, Gen.hostOps0]; after_results
  rw [e, truncf_apply, mulf_apply, subf_apply, transpose_ix2_apply, rows_apply, rows_apply, row_apply, row_apply]
  rfl

end Cert.KernelIdeal.Arrays

end
-- ==== Proof.KernelValue.lean ====
/-
  From blocks to the array. Grid point t stages rows 512·t … 512·t + 511 of the activations and of the result and, at
  every point, the whole of each prepared array. So what point t writes back is rows 512·t … of the common value
  `FakeQuant.out`, and the 64 row blocks tile the result array: after the run it holds `FakeQuant.out` of the arguments.
-/
import proofs.«152009_j64415919506225_1_alg».proof.Proof.Gen.KernelIdeal.Value
import proofs.«152009_j64415919506225_1_alg».proof.Proof.KernelPayload
import proofs.«152009_j64415919506225_1_alg».proof.Proof.KernelArrays

set_option maxRecDepth 16384

open scoped BigOperators

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The common value of the arguments as launched on core c. -/
abbrev G (c : Dev nD) : S32768x2048.Idx → EReal :=
  Cert.FakeQuant.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem hz : (![0, 0] : Fin 2 → Nat) = fun _ => 0 := funext fun a => by fin_cases a <;> rfl

/-- The index maps over the grid: the activation and result windows move down one row block per point, every other
    window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row 512·t + p of the array, for a row p of block t. -/
abbrev rowOf (t : Fin cfg0.N) (p : Fin 512) : Fin 32768 :=
  ⟨t.val * 512 + p.val, by have hN : cfg0.N = 64 := N_0; have := t.isLt; have := p.isLt; omega⟩

/-- The activation block at point t, entry (p, d): the activations at (512·t + p, d). -/
theorem x_blk (c : Dev nD) (t : Fin cfg0.N) (p : Fin 512) (d : Fin 2048) :
    (iblk m c 0 t : S512x2048.Idx → EReal) (ix2 p d) = m ((c : Thread nD τ).loc main_arg0) (ix2 (rowOf t p) d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 2048 + 1 * d.val = d.val; omega

/-- The one-row blocks at point t are the one-row arrays. -/
theorem r_blk (c : Dev nD) (t : Fin cfg0.N) (d : Fin 2048) :
    (iblk m c 1 t : S1x2048.Idx → EReal) (ix2 (0 : Fin 1) d) = m ((c : Thread nD τ).loc main_arg1) (ix1 d) := by
  obtain ⟨-, -, e0, e1, -⟩ := idx_facts t
  show (V m c main_v10 : S1x2048.Idx → EReal) (((cfg0.win 1).blk t).view.emb (ix2 (0 : Fin 1) d)) = _
  rw [← Arrays.r_row m c d]
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * d.val = d.val; omega

theorem s_blk (c : Dev nD) (t : Fin cfg0.N) (d : Fin 2048) :
    (iblk m c 2 t : S1x2048.Idx → EReal) (ix2 (0 : Fin 1) d) = m ((c : Thread nD τ).loc main_arg2) (ix1 d) := by
  obtain ⟨-, -, -, -, e0, e1, -⟩ := idx_facts t
  show (V m c main_v11 : S1x2048.Idx → EReal) (((cfg0.win 2).blk t).view.emb (ix2 (0 : Fin 1) d)) = _
  rw [← Arrays.s_row m c d]
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * d.val = d.val; omega

theorem z_blk (c : Dev nD) (t : Fin cfg0.N) (d : Fin 2048) :
    (iblk m c 3 t : S1x2048.Idx → EReal) (ix2 (0 : Fin 1) d)
      = (((m ((c : Thread nD τ).loc main_arg3) (ix1 d)).toInt : ℝ) : EReal) := by
  obtain ⟨-, -, -, -, -, -, e0, e1, -⟩ := idx_facts t
  show (V m c main_v13 : S1x2048.Idx → EReal) (((cfg0.win 3).blk t).view.emb (ix2 (0 : Fin 1) d)) = _
  rw [← Arrays.z_row m c d]
  refine congrArg _ (funext fun a => Fin.ext ?_)
  match a with
  | ⟨0, _⟩ => show win0_3.index t (0 : Fin 2) * 1 + 1 * 0 = 0; omega
  | ⟨1, _⟩ => show win0_3.index t (1 : Fin 2) * 2048 + 1 * d.val = d.val; omega

theorem b_blk (c : Dev nD) (t : Fin cfg0.N) (q : Fin 2048) :
    (iblk m c 5 t : S1x2048.Idx → EReal) (ix2 (0 : Fin 1) q) = m ((c : Thread nD τ).loc main_arg7) (ix1 q) := by
  obtain ⟨-, -, -, -, -, -, -, -, -, -, e0, e1, -⟩ := idx_facts t
  show (V m c main_v14 : S1x2048.Idx → EReal) (((cfg0.win 5).blk t).view.emb (ix2 (0 : Fin 1) q)) = _
  rw [← Arrays.b_row m c q]
  refine congrArg _ (funext fun a => Fin.ext ?_)
  match a with
  | ⟨0, _⟩ => show win0_5.index t (0 : Fin 2) * 1 + 1 * 0 = 0; omega
  | ⟨1, _⟩ => show win0_5.index t (1 : Fin 2) * 2048 + 1 * q.val = q.val; omega

/-- The weight block at point t is the whole prepared weight: entry (d, o) is the dequantized weight (o, d). -/
theorem w_blk (c : Dev nD) (t : Fin cfg0.N) (d o : Fin 2048) :
    (iblk m c 4 t : S2048x2048.Idx → EReal) (ix2 d o)
      = Cert.FakeQuant.wgt (m ((c : Thread nD τ).loc main_arg4)) (m ((c : Thread nD τ).loc main_arg5))
          (m ((c : Thread nD τ).loc main_arg6)) o d := by
  obtain ⟨-, -, -, -, -, -, -, -, e0, e1, -⟩ := idx_facts t
  show (V m c main_v9 : S2048x2048.Idx → EReal) (((cfg0.win 4).blk t).view.emb (ix2 d o)) = _
  rw [← Arrays.w_entry m c d o]
  refine congrArg _ (funext fun a => Fin.ext ?_)
  match a with
  | ⟨0, _⟩ => show win0_4.index t (0 : Fin 2) * 2048 + 1 * d.val = d.val; omega
  | ⟨1, _⟩ => show win0_4.index t (1 : Fin 2) * 2048 + 1 * o.val = o.val; omega

/-- What point t writes back is block t of the common value. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz]
  simp only [View.ld_unit_zero (S := S512x2048) hz, View.ld_unit_zero (S := S1x2048) hz, View.ld_unit_zero (S := S2048x2048) hz]
  obtain ⟨-, -, -, -, -, -, -, -, -, -, -, -, e0, e1⟩ := idx_facts t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = G m c (((cfg0.win 6).blk t).view.emb (ix2 p q))
  have hemb : ((cfg0.win 6).blk t).view.emb (ix2 p q) = ix2 (rowOf t p) q := by
    refine funext fun a => Fin.ext ?_
    match a with
    | ⟨0, _⟩ => show win0_6.index t (0 : Fin 2) * 512 + 1 * p.val = t.val * 512 + p.val; omega
    | ⟨1, _⟩ => show win0_6.index t (1 : Fin 2) * 2048 + 1 * q.val = q.val; omega
  rw [hemb]
  refine (Payload.pay_apply (iblk m c 0 t) (iblk m c 1 t) (iblk m c 2 t) (iblk m c 3 t) (iblk m c 4 t) (iblk m c 5 t) p q).trans ?_
  show _ = (∑ d : Fin 2048, Cert.FakeQuant.act (m ((c : Thread nD τ).loc main_arg0)) (m ((c : Thread nD τ).loc main_arg1))
      (m ((c : Thread nD τ).loc main_arg2)) (m ((c : Thread nD τ).loc main_arg3)) (rowOf t p) d
    * Cert.FakeQuant.wgt (m ((c : Thread nD τ).loc main_arg4)) (m ((c : Thread nD τ).loc main_arg5))
      (m ((c : Thread nD τ).loc main_arg6)) q d) + m ((c : Thread nD τ).loc main_arg7) (ix1 q)
  rw [b_blk m c t q]
  refine congrArg (· + m ((c : Thread nD τ).loc main_arg7) (ix1 q)) (Finset.sum_congr rfl fun d _ => ?_)
  rw [x_blk m c t p d, r_blk m c t d, s_blk m c t d, z_blk m c t d, w_blk m c t d q]
  rfl

/-- An index of the array is in point t's block iff each coordinate is in the block's range on its axis. -/
theorem mem_blk (t : Fin cfg0.N) (i : S32768x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v15).slice (win0_6.rect t)).set ↔ _
  rw [View.set_slice_whole, Rect.mem_set_unit]
  exact Iff.rfl

/-- Every row of the result lies in the row block of the point its index divided by 512 names. -/
theorem cover (i : S32768x2048.Idx) : ∃ t : Fin cfg0.N, (cfg0.win 6).flush t = true ∧ i ∈ ((cfg0.win 6).blk t).view.set := by
  have hi0 : (i 0).val < 32768 := (i 0).isLt
  have hi1 : (i 1).val < 2048 := (i 1).isLt
  have hN : cfg0.N = 64 := N_0
  let t : Fin cfg0.N := ⟨(i 0).val / 512, by omega⟩
  obtain ⟨-, -, -, -, -, -, -, -, -, -, -, -, e0, e1⟩ := idx_facts t
  refine ⟨t, flush0_6 t, ?_⟩
  rw [mem_blk]
  intro a
  have ht : t.val = (i 0).val / 512 := rfl
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- The result array after the run. -/
theorem final (c : Dev nD) : (dats m 0 c).arrAt 6 cfg0.N = G m c :=
  (dats m 0 c).arrAt_eq_of_cover 6 (G m c) (fun t _ => flushed_eq m c t) cover

/-- The kernel's run with its result named: the common value of the arguments, the arguments unchanged. -/
theorem run : θ_run defs (onTc (τ := τ) (main (F := Ideal))) ⟨m, fun _ => 0, ρ⟩ fun r => ∀ c : Dev nD,
      r.2.mem ((c : Thread nD τ).loc main_v15) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.Whole

end
-- ==== Proof.ReferenceValue.lean ====
/-
  The reference, read entry by entry, is the common value `FakeQuant.out`. Its activation chain at (n, d) reads the
  per-channel vectors through a broadcast along the rows, so at channel d; its weight chain at (o, d) reads the
  per-output-channel vectors through a broadcast along the columns, so at channel o; its product contracts the second
  axis of both operands, so entry (n, o) sums act(n, d) · wgt(o, d) over d; and the bias is read at channel o.
-/
import proofs.«152009_j64415919506225_1_alg».proof.Proof.Gen.ReferenceIdeal.Read
import proofs.«152009_j64415919506225_1_alg».proof.Proof.FakeQuantSpec
import Idealize.ShloMosaic.Lib.ValueIdx

open scoped BigOperators

noncomputable section

namespace Cert.ReferenceIdeal.RefValue

open Cert.ReferenceIdeal Cert.ReferenceIdeal.Gen Cert.ReferenceIdeal.Read Idealize.ShloMosaic Idealize.ShloMosaic.ValueIdx

variable [Cert.ReferenceIdeal.Facts]

/-- A per-input-channel vector spread to one row and then over the rows is read, at (n, d), at channel d. -/
theorem chan_in (n : Fin 32768) (d : Fin 2048) : idx_main_v1 (idx_main_v2 (ix2 n d)) = ix1 d :=
  funext fun a => match a with | ⟨0, _⟩ => rfl

/-- A per-output-channel vector spread to one column and then over the columns is read, at (o, d), at channel o. -/
theorem chan_out (o d : Fin 2048) : idx_main_v20 (idx_main_v21 (ix2 o d)) = ix1 o :=
  funext fun a => match a with | ⟨0, _⟩ => rfl

/-- The reference's dequantized activation at (n, d). -/
theorem act_eq (x0 : (⟨S32768x2048, .f32⟩ : BufTy).Contents (Elt Ideal)) (x1 x2 : (⟨S2048, .f32⟩ : BufTy).Contents (Elt Ideal))
    (x3 : (⟨S2048, .i32⟩ : BufTy).Contents (Elt Ideal)) (n : Fin 32768) (d : Fin 2048) :
    val_main_v17 (F := Ideal) x0 x1 x2 x3 (ix2 n d) = Cert.FakeQuant.act x0 x1 x2 x3 n d := by
  simp only [val_main_v17_apply, val_main_v14_apply, val_main_v11_apply, val_main_call1_v4_apply, val_main_call1_v3_apply,
    val_main_cst_0_apply, val_main_call1_v2_apply, val_main_call1_v1_apply, val_main_call1_v0_apply, val_main_cst_apply,
    val_main_v10_apply, val_main_v7_apply, val_main_v6_apply, val_main_v3_apply, val_main_v2_apply, val_main_v1_apply,
    val_main_v5_apply, val_main_v4_apply, val_main_v9_apply, val_main_v8_apply, val_main_v0_apply, val_main_v13_apply,
    val_main_v12_apply, val_main_v16_apply, val_main_v15_apply]
  have e := chan_in n d
  show (min _ (max _ (Ideal.liftRound Ideal.roundHalfEven (Ideal.div (Ideal.div (x0 (ix2 n d)) (x1 (idx_main_v1 (idx_main_v2 (ix2 n d)))))
      (x2 (idx_main_v1 (idx_main_v2 (ix2 n d))))) + (((x3 (idx_main_v1 (idx_main_v2 (ix2 n d)))).toInt : ℝ) : EReal)))
      - (((x3 (idx_main_v1 (idx_main_v2 (ix2 n d)))).toInt : ℝ) : EReal)) * x2 (idx_main_v1 (idx_main_v2 (ix2 n d))) = _
  rw [e]
  rfl

/-- The reference's dequantized weight at (o, d). -/
theorem wgt_eq (x4 : (⟨S2048x2048, .i32⟩ : BufTy).Contents (Elt Ideal)) (x5 : (⟨S2048, .f32⟩ : BufTy).Contents (Elt Ideal))
    (x6 : (⟨S2048, .i32⟩ : BufTy).Contents (Elt Ideal)) (o d : Fin 2048) :
    val_main_v25 (F := Ideal) x4 x5 x6 (ix2 o d) = Cert.FakeQuant.wgt x4 x5 x6 o d := by
  simp only [val_main_v25_apply, val_main_v22_apply, val_main_v18_apply, val_main_v21_apply, val_main_v20_apply,
    val_main_v19_apply, val_main_v24_apply, val_main_v23_apply]
  have e := chan_out o d
  show ((((x4 (ix2 o d)).toInt : ℝ) : EReal) - (((x6 (idx_main_v20 (idx_main_v21 (ix2 o d)))).toInt : ℝ) : EReal))
      * x5 (idx_main_v20 (idx_main_v21 (ix2 o d))) = _
  rw [e]
  rfl

/-- The reference's result array is the common value. -/
theorem result_eq (x0 : (⟨S32768x2048, .f32⟩ : BufTy).Contents (Elt Ideal)) (x1 x2 : (⟨S2048, .f32⟩ : BufTy).Contents (Elt Ideal))
    (x3 : (⟨S2048, .i32⟩ : BufTy).Contents (Elt Ideal)) (x4 : (⟨S2048x2048, .i32⟩ : BufTy).Contents (Elt Ideal))
    (x5 : (⟨S2048, .f32⟩ : BufTy).Contents (Elt Ideal)) (x6 : (⟨S2048, .i32⟩ : BufTy).Contents (Elt Ideal))
    (x7 : (⟨S2048, .f32⟩ : BufTy).Contents (Elt Ideal)) :
    val_main_v29 (F := Ideal) x0 x1 x2 x3 x4 x5 x6 x7 = Cert.FakeQuant.out x0 x1 x2 x3 x4 x5 x6 x7 := by
  funext i
  obtain ⟨n, o, rfl⟩ : ∃ (n : Fin 32768) (o : Fin 2048), i = ix2 n o := ⟨i 0, i 1, eq_ix2 i⟩
  rw [val_main_v29_apply, val_main_v26_apply, val_main_v28_apply, val_main_v27_apply]
  have eb : idx_main_v27 (idx_main_v28 (ix2 n o)) = ix1 o := funext fun a => match a with | ⟨0, _⟩ => rfl
  have el : ∀ k : Fin 2048, lidx_main_v26 (ix2 n o) k = ix2 n k := fun k =>
    funext fun a => match a with | ⟨0, _⟩ => rfl | ⟨1, _⟩ => rfl
  have er : ∀ k : Fin 2048, ridx_main_v26 (ix2 n o) k = ix2 o k := fun k =>
    funext fun a => match a with | ⟨0, _⟩ => rfl | ⟨1, _⟩ => rfl
  rw [eb]
  show (∑ k : Fin 2048, _) + x7 (ix1 o)
    = (∑ d : Fin 2048, Cert.FakeQuant.act x0 x1 x2 x3 n d * Cert.FakeQuant.wgt x4 x5 x6 o d) + x7 (ix1 o)
  refine congrArg (· + x7 (ix1 o)) (Finset.sum_congr rfl fun k _ => ?_)
  rw [el k, er k, act_eq, wgt_eq]

end Cert.ReferenceIdeal.RefValue

end
-- ==== Proof.lean ====
/-
  A linear layer on quantized-and-taken-back activations and dequantized weights, as a tiled kernel, against its plain
  reference, over the extended reals. Both programs compute, at row n and output channel o,

      ∑_d  (min 127 (max (−128) (round (x(n,d) / r(d) / s(d)) + z(d))) − z(d)) · s(d)  ·  (W(o,d) − u(o)) · v(o)   +   b(o)

  with the same operations in the same order (`FakeQuantSpec.lean`): the kernel prepares the dequantized weight
  transposed and the per-channel vectors as one-row matrices before its one region, and in the region takes 512 rows
  of activations per grid point against the whole prepared weight, accumulating the product into zero
  (`KernelArrays.lean`, `KernelPayload.lean`, `KernelValue.lean`); the reference spreads the vectors by broadcasts
  and contracts the second axis of both operands (`ReferenceValue.lean`). On the extended reals the narrowing of the
  product's operands to a shorter float format is the identity, so no law of arithmetic is needed beyond reading both
  sides entry by entry, and the finiteness of the inputs is not used. The three frame claims are the generated frame
  runs; the idealization rewrote nothing, so its claim is trivial.
-/
import proofs.«152009_j64415919506225_1_alg».proof.Defs
import proofs.«152009_j64415919506225_1_alg».proof.Proof.Gen.Kernel
import proofs.«152009_j64415919506225_1_alg».proof.Proof.Gen.Kernel.Skeleton
import proofs.«152009_j64415919506225_1_alg».proof.Proof.Gen.Kernel.Launch
import proofs.«152009_j64415919506225_1_alg».proof.Proof.Gen.Kernel.Points
import proofs.«152009_j64415919506225_1_alg».proof.Proof.Gen.Kernel.Frame
import proofs.«152009_j64415919506225_1_alg».proof.Proof.Gen.KernelIdeal
import proofs.«152009_j64415919506225_1_alg».proof.Proof.Gen.KernelIdeal.Skeleton
import proofs.«152009_j64415919506225_1_alg».proof.Proof.Gen.KernelIdeal.Launch
import proofs.«152009_j64415919506225_1_alg».proof.Proof.Gen.KernelIdeal.Points
import proofs.«152009_j64415919506225_1_alg».proof.Proof.Gen.KernelIdeal.Frame
import proofs.«152009_j64415919506225_1_alg».proof.Proof.Gen.ReferenceIdeal
import proofs.«152009_j64415919506225_1_alg».proof.Proof.Gen.KernelIdeal.Value
import proofs.«152009_j64415919506225_1_alg».proof.Proof.Gen.ReferenceIdeal.Run
import proofs.«152009_j64415919506225_1_alg».proof.Proof.Gen.ReferenceIdeal.Read
import proofs.«152009_j64415919506225_1_alg».proof.Proof.Gen.Pre_finite_inputs
import proofs.«152009_j64415919506225_1_alg».proof.Proof.KernelValue
import proofs.«152009_j64415919506225_1_alg».proof.Proof.ReferenceValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the common value of the arguments in their result arrays. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq (F := Ideal) _ _ _ _ _ _ _ _).trans ?_
  rw [Cert.ReferenceIdeal.RefValue.result_eq]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
